-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S256x2 .f32) (main_arg13 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg12
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256 .f32) (main_arg11 : FVec F S256 .f32) (main_arg12 : FVec F S256x2 .f32) (main_arg13 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x2 .f32) (main_arg13 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x640000 32) (main_arg2 : FVec F S128 .f32) (main_arg3 : FVec F S128 .f32) (main_arg4 : FVec F S128 .f32) (main_arg5 : FVec F S128 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x640000 : Shape := ⟨2, ![2, 640000]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S2000x128 : Shape := ⟨2, ![2000, 128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x256 : Shape := ⟨2, ![50000, 256]⟩
abbrev S2000x256 : Shape := ⟨2, ![2000, 256]⟩
abbrev S1x256 : Shape := ⟨2, ![1, 256]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 34
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S50000x128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S50000x128, .f32⟩
  | .hbm, ⟨30, _⟩ => ⟨S640000x1, .i32⟩
  | .hbm, ⟨31, _⟩ => ⟨S50000x128, .f32⟩
  | .hbm, ⟨32, _⟩ => ⟨S50000x256, .f32⟩
  | .hbm, ⟨33, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256x2, .f32⟩
  | .local _ .vmem, ⟨23, _⟩ => ⟨S2, .f32⟩
  | .local _ .vmem, ⟨24, _⟩ => ⟨S2000x2, .f32⟩
  | .local _ .vmem, ⟨25, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x256_S2000x256_1_0_0_1_n_n_wf : DotDims.WF S2000x128 S128x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256.size a ≤ S256.size a
  hwx2_1 : ∀ i : grid2.Coords, EltTy.bits .f32 = 32 ∨ (Rect.block (s := S256) S256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x2.size a ≤ S256x2.size a
  hwx2_5 : ∀ i : grid2.Coords, EltTy.bits .f32 = 32 ∨ (Rect.block (s := S256x2) S256x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2.size a ≤ S2.size a
  hwx2_6 : ∀ i : grid2.Coords, EltTy.bits .f32 = 32 ∨ (Rect.block (s := S2) S2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x2.size a ≤ S50000x2.size a
  hwx2_7 : ∀ i : grid2.Coords, EltTy.bits .f32 = 32 ∨ (Rect.block (s := S50000x2) S2000x2.size (cc2_transform_7 i) (hinb2_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S256x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S2000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128 : Shape := ⟨1, ![128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x128 : Shape := ⟨2, ![1, 128]⟩
abbrev S_ : Shape := ⟨0, ![]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S50000x256 : Shape := ⟨2, ![50000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S1x640000, .i32⟩
  | .hbm, ⟨29, _⟩ => ⟨S640000, .i32⟩
  | .hbm, ⟨30, _⟩ => ⟨S1x640000, .i32⟩
  | .hbm, ⟨31, _⟩ => ⟨S640000, .i32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .f32⟩
  | .hbm, ⟨42, _⟩ => ⟨S50000x128, .f32⟩
  | .hbm, ⟨43, _⟩ => ⟨S640000x1, .i32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S50000x2, .f32⟩
  | .hbm, ⟨71, _⟩ => ⟨S1x2, .f32⟩
  | .hbm, ⟨72, _⟩ => ⟨S50000x2, .f32⟩
  | .hbm, ⟨73, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_cst : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x256_S50000x256_1_0_0_1_n_n_wf : DotDims.WF S50000x128 S128x256 S50000x256 [1] [0] [0] [1] [] []
  dot_S50000x256_S256x2_S50000x2_1_0_0_1_n_n_wf : DotDims.WF S50000x256 S256x2 S50000x2 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.Spec.lean ====
/-
  The mathematics of the layer, stated once, index by index over the extended reals.

  Node features `x : [N, F]` go through an evaluation-mode batch normalisation (per column: subtract the
  running mean, scale by `γ · (σ² + ε)^(-1/2)`, add `β`); the normalised features `h` are aggregated over the graph's
  edges by a map `agg` (a gather of source rows followed by a scatter-add into destination rows: both programs apply
  the very same host operations, so it stays an opaque function here); `1·h + agg h` goes through a dense layer with
  bias and a rectifier; the hidden features go through a second batch normalisation and a last dense layer with bias.

  Nothing here mentions a program: the two sides each prove that their result is `gin` of their arguments.
-/
import Idealize.ShloMosaic.PureOps.Ideal
import Idealize.ShloMosaic.Lib.ValueIdx

noncomputable section

open scoped BigOperators

namespace Cert.Layer

open Idealize.ShloMosaic Idealize.ShloMosaic.ValueIdx

/-- A rank-2 array of extended reals. -/
abbrev Mat (R C : Nat) : Type := (⟨2, ![R, C]⟩ : Shape).Idx → EReal
/-- A rank-1 array of extended reals. -/
abbrev Row (C : Nat) : Type := (⟨1, ![C]⟩ : Shape).Idx → EReal

/-- The variance floor `ε` both programs add before the reciprocal square root: the float word they share. -/
abbrev eps : EReal := Ideal.ofBits .f32 0x3727C5AC#32
/-- The factor `1 + 0` in front of a node's own features: the float word `1.0` both programs share. -/
abbrev selfWeight : EReal := Ideal.ofBits .f32 0x3F800000#32
/-- The rectifier's floor: the float word `0.0`. -/
abbrev floor0 : EReal := Ideal.ofBits .f32 0x00000000#32

/-- Evaluation-mode batch normalisation: entry `(r, c)` is `(x r c − μ c) · (γ c · (σ² c + ε)^(-1/2)) + β c`. -/
def bnorm {R C : Nat} (x : Mat R C) (γ β μ σ2 : Row C) : Mat R C :=
  fun i => (x i - μ (ix1 (i 1))) * (γ (ix1 (i 1)) * Ideal.rsqrt (σ2 (ix1 (i 1)) + eps)) + β (ix1 (i 1))

/-- A node's own features plus its aggregated neighbours, through a dense layer, a bias and a rectifier: entry
    `(r, n)` is `max (∑ k, (1·h r k + a r k) · W k n + b n) 0`. -/
def combineDense {R K N : Nat} (h a : Mat R K) (W : Mat K N) (b : Row N) : Mat R N :=
  fun i => max ((∑ k : Fin K, (selfWeight * h (ix2 (i 0) k) + a (ix2 (i 0) k)) * W (ix2 k (i 1))) + b (ix1 (i 1))) floor0

/-- Batch normalisation of the hidden features followed by the output layer: entry `(r, n)` is
    `∑ k, bnorm hid (r, k) · W k n + b n`. -/
def normDense {R K N : Nat} (hid : Mat R K) (γ β μ σ2 : Row K) (W : Mat K N) (b : Row N) : Mat R N :=
  fun i => (∑ k : Fin K, bnorm hid γ β μ σ2 (ix2 (i 0) k) * W (ix2 k (i 1))) + b (ix1 (i 1))

/-- The whole layer, given the edge aggregation `agg` of normalised features. -/
def gin {R F H N : Nat} (agg : Mat R F → Mat R F)
    (x : Mat R F) (γ0 β0 μ0 v0 : Row F) (W1 : Mat F H) (b1 : Row H) (γ1 β1 μ1 v1 : Row H) (W2 : Mat H N) (b2 : Row N) : Mat R N :=
  normDense (combineDense (bnorm x γ0 β0 μ0 v0) (agg (bnorm x γ0 β0 μ0 v0)) W1 b1) γ1 β1 μ1 v1 W2 b2

end Cert.Layer

end
-- ==== Proof.Norm0.lean ====
import proofs.«124425_j74431783240459_1_alg».proof.Proof.Gen.KernelIdeal.Frame
import proofs.«124425_j74431783240459_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Norm0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offset of a rank-2 block, as a constant function. -/
theorem zero2 : (![0, 0] : Fin 2 → Nat) = fun _ => 0 := funext fun a => by fin_cases a <;> rfl
/-- The zero offset of a rank-1 block, as a constant function. -/
theorem zero1 : (![0] : Fin 1 → Nat) = fun _ => 0 := funext fun a => by fin_cases a; rfl

/-- A vector over the 128 columns, given a unit row axis and repeated over 2000 rows, reads at `(p, q)` its entry `q`. -/
theorem rowRepeat_apply (v : FVec Ideal S128 .f32) (p : Fin 2000) (q : Fin 128) :
    broadcastTo S2000x128 (shapeCast S1x128 v shapeCasts_S128_S1x128) broadcasts_S1x128_S2000x128 (ix2 p q) = v (ix1 q) :=
  (broadcastTo_1b_ab_apply _ _ p q).trans (shapeCast_a_1a_apply v _ 0 q)

/-- The body's arithmetic at an entry `(p, q)` of its block. -/
theorem pay_apply (x : Vec Ideal S2000x128 .f32) (g v m b : Vec Ideal S128 .f32) (p : Fin 2000) (q : Fin 128) :
    k0_pay1 x g v m b (ix2 p q)
      = (x (ix2 p q) - m (ix1 q)) * (g (ix1 q) * Ideal.rsqrt (v (ix1 q) + Cert.Layer.eps)) + b (ix1 q) := by
  unfold k0_pay1
  simp only [addf_apply, mulf_apply, subf_apply, rowRepeat_apply]
  rfl

/-- The normalisation's entry from its five operands read at equal places. -/
theorem bnorm_of_reads (X : Cert.Layer.Mat 50000 128) (G B M S : Cert.Layer.Row 128) (i i' : S50000x128.Idx)
    (kg kb km kv : S128.Idx) (hx : i' = i) (hg : kg = ix1 (i 1)) (hb : kb = ix1 (i 1)) (hm : km = ix1 (i 1))
    (hv : kv = ix1 (i 1)) :
    (X i' - M km) * (G kg * Ideal.rsqrt (S kv + Cert.Layer.eps)) + B kb = Cert.Layer.bnorm X G B M S i := by
  subst hx hg hb hm hv
  rfl

-- the buffer contents the region is entered with: any
variable (V : (c : Dev nD) → (b : Ref sig .tc) → Buf (Elt Ideal) ((c : Thread nD τ).loc b))

/-- The printed index maps over the 25 grid points: the feature block and the output block sit at row block `t`,
    column block 0; the four column vectors sit whole at block 0. -/
theorem idx_facts : ∀ t : Fin cfg0.N,
    win0_0.index t (0 : Fin 2) = win0_5.index t (0 : Fin 2)
    ∧ win0_0.index t (1 : Fin 2) = 0
    ∧ win0_5.index t (0 : Fin 2) ≤ 24
    ∧ win0_5.index t (1 : Fin 2) = 0
    ∧ win0_1.index t (0 : Fin 1) = 0
    ∧ win0_2.index t (0 : Fin 1) = 0
    ∧ win0_3.index t (0 : Fin 1) = 0
    ∧ win0_4.index t (0 : Fin 1) = 0 :=
  (by decide +kernel : ∀ t : Fin grid0.N, _)

/-- Every one of the 25 row blocks is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- What point `t` writes back is block `t` of the batch normalisation of the five input arrays: the body's
    arithmetic at an entry, with the feature block read where the output block sits and each column vector read at
    the entry's column. -/
theorem flushed_eq (c : Dev nD) (t : Fin cfg0.N) :
    (dat0 (F := Ideal) V c).flushed 5 t = ((cfg0.win 5).blk t).view.read (Elt Ideal)
      (Cert.Layer.bnorm (V c main_arg0) (V c main_arg2) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S2000x128) zero2, View.ld_unit_zero (S := S128) zero1]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 4 t) (iblk0 V c 3 t) (iblk0 V c 2 t) (ix2 p q) = _
  refine (pay_apply _ _ _ _ _ p q).trans ?_
  have hp : p.val < 2000 := p.isLt
  have hq : q.val < 128 := q.isLt
  -- the feature block sits where the output block sits
  have hx : ((cfg0.win 0).blk t).view.emb (ix2 p q) = ((cfg0.win 5).blk t).view.emb (ix2 p q) := by
    funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * q.val = win0_5.index t (1 : Fin 2) * 128 + 1 * q.val; omega
  -- each column vector is read at the output entry's column
  have hg : ((cfg0.win 1).blk t).view.emb (ix1 q) = ix1 ((((cfg0.win 5).blk t).view.emb (ix2 p q)) 1) := by
    funext a; apply Fin.ext
    match a with
    | ⟨0, _⟩ => show win0_1.index t (0 : Fin 1) * 128 + 1 * q.val = win0_5.index t (1 : Fin 2) * 128 + 1 * q.val; omega
  have hb : ((cfg0.win 2).blk t).view.emb (ix1 q) = ix1 ((((cfg0.win 5).blk t).view.emb (ix2 p q)) 1) := by
    funext a; apply Fin.ext
    match a with
    | ⟨0, _⟩ => show win0_2.index t (0 : Fin 1) * 128 + 1 * q.val = win0_5.index t (1 : Fin 2) * 128 + 1 * q.val; omega
  have hm : ((cfg0.win 3).blk t).view.emb (ix1 q) = ix1 ((((cfg0.win 5).blk t).view.emb (ix2 p q)) 1) := by
    funext a; apply Fin.ext
    match a with
    | ⟨0, _⟩ => show win0_3.index t (0 : Fin 1) * 128 + 1 * q.val = win0_5.index t (1 : Fin 2) * 128 + 1 * q.val; omega
  have hv : ((cfg0.win 4).blk t).view.emb (ix1 q) = ix1 ((((cfg0.win 5).blk t).view.emb (ix2 p q)) 1) := by
    funext a; apply Fin.ext
    match a with
    | ⟨0, _⟩ => show win0_4.index t (0 : Fin 1) * 128 + 1 * q.val = win0_5.index t (1 : Fin 2) * 128 + 1 * q.val; omega
  exact bnorm_of_reads (V c main_arg0) (V c main_arg2) (V c main_arg3) (V c main_arg4) (V c main_arg5) _ _ _ _ _ _ hx hg hb hm hv

/-- An entry of the array lies in point `t`'s block iff each coordinate lies in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v0).slice (win0_5.rect t)).set ↔ _
  rw [View.set_slice_whole, Rect.mem_set_unit]
  exact Iff.rfl

/-- Every entry is in some point's block: row `r` is in row block `r / 2000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After the first region its output array is the batch normalisation of the region's five input arrays. -/
theorem final (c : Dev nD) :
    (dat0 (F := Ideal) V c).arrAt 5 cfg0.N
      = Cert.Layer.bnorm (V c main_arg0) (V c main_arg2) (V c main_arg3) (V c main_arg4) (V c main_arg5) :=
  (dat0 V c).arrAt_eq_of_cover 5 _ (fun t _ => flushed_eq V c t) cover

end Cert.KernelIdeal.Norm0

end
-- ==== Proof.Dense1.lean ====
import proofs.«124425_j74431783240459_1_alg».proof.Proof.Gen.KernelIdeal.Frame
import proofs.«124425_j74431783240459_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents the region is entered with: any
variable (V : (c : Dev nD) → (b : Ref sig .tc) → Buf (Elt Ideal) ((c : Thread nD τ).loc b))

/-! ## The contraction's operand indices, axis by axis -/

theorem lhs_dot_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dot_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dot_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dot_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block's product into the zero splat, at entry `(p, q)`: the sum over the 128 contraction indices. -/
theorem matmul_block_apply (a : FVec Ideal S2000x128 .bf16) (w : FVec Ideal S128x256 .bf16) (p : Fin 2000) (q : Fin 256) :
    matmul dot_S2000x128_S128x256_S2000x256_1_0_0_1_n_n none a w (constant (F := Ideal) S2000x256 .f32 0x00000000#32) (ix2 p q)
      = ∑ k : Fin 128, a (ix2 p k) * w (ix2 k q) := by
  refine (Ideal.matmul_constant_zero_apply dot_S2000x128_S128x256_S2000x256_1_0_0_1_n_n none a w (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The body's payload at entry `(p, q)` of the block: the rectified, biased sum over the 128 contraction
    indices of (the node's own features with weight one, plus the aggregated ones) times the weights. The two
    roundings to the narrower float format are the identity over the extended reals. -/
theorem pay_apply (x0 x1 : Vec Ideal S2000x128 .f32) (x2 : Vec Ideal S128x256 .f32) (x3 : Vec Ideal S256 .f32)
    (p : Fin 2000) (q : Fin 256) :
    k1_pay1 (F := Ideal) x0 x1 x2 x3 (ix2 p q)
      = max ((∑ k : Fin 128, (Cert.Layer.selfWeight * x0 (ix2 p k) + x1 (ix2 p k)) * x2 (ix2 k q)) + x3 (ix1 q))
          Cert.Layer.floor0 := by
  unfold k1_pay1
  simp only [shapeCast_self]
  rw [maximumf_apply, addf_apply, matmul_block_apply, broadcastTo_1b_ab_apply, shapeCast_a_1a_apply]
  rfl

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided once over the 25 grid points: the two feature windows move down the rows
    with the output window (block `t` of 2000 rows at point `t`), the weights and the bias stay at their one
    block, and the output's row-block index stays below 25. -/
theorem idx_facts : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) ≤ 24
    ∧ win1_4.index t (1 : Fin 2) = 0 :=
  (by decide +kernel : ∀ t : Fin grid1.N, _)

/-- Every one of the 25 row blocks of the output is some point's. -/
theorem idx_onto : ∀ b : Fin 25, ∃ t : Fin cfg1.N, win1_4.index t = ![b.val, 0] :=
  (by decide +kernel : ∀ b : Fin 25, ∃ t : Fin grid1.N, win1_4.index t = ![b.val, 0])

/-- The block of the node's own features at point `t`, at `(p, k)`: row `r` of the array, where `r` is `p`
    rows into the output's row block. -/
theorem own_block (c : Dev nD) (t : Fin cfg1.N) (p : Fin 2000) (k : Fin 128) (r : Fin 50000)
    (hr : r.val = win1_4.index t (0 : Fin 2) * 2000 + 1 * p.val) :
    iblk1 (F := Ideal) V c 0 t (ix2 p k) = V c main_v0 (ix2 r k) := by
  obtain ⟨e0, e1, -⟩ := idx_facts t
  show V c main_v0 (((cfg1.win 0).blk t).view.emb (ix2 p k)) = V c main_v0 (ix2 r k)
  refine congrArg (V c main_v0) (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- The block of aggregated features at point `t`, at `(p, k)`: the same row of its array. -/
theorem agg_block (c : Dev nD) (t : Fin cfg1.N) (p : Fin 2000) (k : Fin 128) (r : Fin 50000)
    (hr : r.val = win1_4.index t (0 : Fin 2) * 2000 + 1 * p.val) :
    iblk1 (F := Ideal) V c 1 t (ix2 p k) = V c main_v14 (ix2 r k) := by
  obtain ⟨-, -, e2, e3, -⟩ := idx_facts t
  show V c main_v14 (((cfg1.win 1).blk t).view.emb (ix2 p k)) = V c main_v14 (ix2 r k)
  refine congrArg (V c main_v14) (funext fun a => Fin.ext ?_)
  match a with
  | ⟨0, _⟩ => show win1_1.index t (0 : Fin 2) * 2000 + 1 * p.val = r.val; omega
  | ⟨1, _⟩ => show win1_1.index t (1 : Fin 2) * 128 + 1 * k.val = k.val; omega

/-- The weights' one block is the whole array. -/
theorem weight_block (c : Dev nD) (t : Fin cfg1.N) (k : Fin 128) (q s : Fin 256) (hs : s.val = q.val) :
    iblk1 (F := Ideal) V c 2 t (ix2 k q) = V c main_arg6 (ix2 k s) := by
  obtain ⟨-, -, -, -, e4, e5, -⟩ := idx_facts t
  show V c main_arg6 (((cfg1.win 2).blk t).view.emb (ix2 k q)) = V c main_arg6 (ix2 k s)
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 256 + 1 * q.val = s.val; omega

/-- The bias's one block is the whole array. -/
theorem bias_block (c : Dev nD) (t : Fin cfg1.N) (q s : Fin 256) (hs : s.val = q.val) :
    iblk1 (F := Ideal) V c 3 t (ix1 q) = V c main_arg7 (ix1 s) := by
  obtain ⟨-, -, -, -, -, -, e6, -⟩ := idx_facts t
  show V c main_arg7 (((cfg1.win 3).blk t).view.emb (ix1 q)) = V c main_arg7 (ix1 s)
  refine congrArg (V c main_arg7) (funext fun a => Fin.ext ?_)
  match a with
  | ⟨0, _⟩ => show win1_3.index t (0 : Fin 1) * 256 + 1 * q.val = s.val; omega

/-- What point `t` writes back is block `t` of the dense layer of the arrays the region is entered with. -/
theorem flushed_eq (c : Dev nD) (t : Fin cfg1.N) :
    (dat1 (F := Ideal) V c).flushed 4 t
      = ((cfg1.win 4).blk t).view.read (Elt Ideal)
          (Cert.Layer.combineDense (V c main_v0) (V c main_v14) (V c main_arg6) (V c main_arg7)) := by
  show (cfg1.win 4).cut (grid1.coords t) ((dat1 (F := Ideal) V c).after 4 t) = _
  rw [after1_4]
  unfold out1_4
  rw [View.canon_unit_zero zeros2]
  simp only [View.ld_unit_zero (S := S2000x128) zeros2, View.ld_unit_zero (S := S128x256) zeros2, View.ld_unit_zero (S := S256) zeros1]
  obtain ⟨-, -, -, -, -, -, -, -, e8⟩ := idx_facts t
  funext j
  obtain ⟨p, q, rfl⟩ : ∃ (p : Fin 2000) (q : Fin 256), j = ix2 p q := ⟨j 0, j 1, eq_ix2 j⟩
  refine (pay_apply _ _ _ _ p q).trans ?_
  have key : ∀ (r : Fin 50000) (s : Fin 256), r.val = win1_4.index t (0 : Fin 2) * 2000 + 1 * p.val → s.val = q.val →
      max ((∑ k : Fin 128, (Cert.Layer.selfWeight * iblk1 (F := Ideal) V c 0 t (ix2 p k) + iblk1 (F := Ideal) V c 1 t (ix2 p k))
              * iblk1 (F := Ideal) V c 2 t (ix2 k q)) + iblk1 (F := Ideal) V c 3 t (ix1 q)) Cert.Layer.floor0
        = max ((∑ k : Fin 128, (Cert.Layer.selfWeight * V c main_v0 (ix2 r k) + V c main_v14 (ix2 r k))
              * V c main_arg6 (ix2 k s)) + V c main_arg7 (ix1 s)) Cert.Layer.floor0 := by
    intro r s hr hs
    refine congrArg (fun z => max z Cert.Layer.floor0) ?_
    refine congrArg₂ (· + ·) (Finset.sum_congr rfl fun k _ => ?_) (bias_block V c t q s hs)
    rw [own_block V c t p k r hr, agg_block V c t p k r hr, weight_block V c t k q s hs]
  exact key ((((cfg1.win 4).blk t).view.emb (ix2 p q)) 0) ((((cfg1.win 4).blk t).view.emb (ix2 p q)) 1) rfl
    (by show win1_4.index t (1 : Fin 2) * 256 + 1 * q.val = q.val; omega)

/-- An index of the output array is in point `t`'s block iff each coordinate is in the block's range on its axis. -/
theorem mem_blk (t : Fin cfg1.N) (i : S50000x256.Idx) :
    i ∈ ((cfg1.win 4).blk t).view.set
      ↔ ∀ a : Fin 2, win1_4.index t a * S2000x256.size a ≤ (i a).val ∧ (i a).val < win1_4.index t a * S2000x256.size a + S2000x256.size a := by
  show i ∈ ((View.whole main_v15).slice (win1_4.rect t)).set ↔ _
  rw [View.set_slice_whole, Rect.mem_set_unit]
  exact Iff.rfl

/-- Every index of the output array is in some point's block: row `r` is in block `r / 2000`. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := idx_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- After the second region its output array is the dense layer (bias, rectifier) of the node's own features plus
    the aggregated ones. -/
theorem final (c : Dev nD) :
    (dat1 (F := Ideal) V c).arrAt 4 cfg1.N
      = Cert.Layer.combineDense (V c main_v0) (V c main_v14) (V c main_arg6) (V c main_arg7) :=
  (dat1 (F := Ideal) V c).arrAt_eq_of_cover 4 _ (fun t _ => flushed_eq V c t) cover

end Cert.KernelIdeal.Dense1

end
-- ==== Proof.Dense2.lean ====
import proofs.«124425_j74431783240459_1_alg».proof.Proof.Gen.KernelIdeal.Frame
import proofs.«124425_j74431783240459_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dense2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A whole-block access starts at offset zero on both axes … -/
theorem zero_off2 : (![0, 0] : Fin 2 → Nat) = fun _ => 0 := funext fun a => by fin_cases a <;> rfl
/-- … and on the one axis of a rank-1 block. -/
theorem zero_off1 : (![0] : Fin 1 → Nat) = fun _ => 0 := funext fun a => by fin_cases a <;> rfl

/-- A row vector laid along every row of a block reads its own entry of the column. -/
theorem row_apply (v : Vec Ideal S256 .f32) (p : Fin 2000) (k : Fin 256) :
    broadcastTo S2000x256 (shapeCast S1x256 v shapeCasts_S256_S1x256) broadcasts_S1x256_S2000x256 (ix2 p k) = v (ix1 k) :=
  (broadcastTo_1b_ab_apply _ _ p k).trans (shapeCast_a_1a_apply v _ 0 k)

/-- The same for the bias, a row of two entries laid along the 2000 rows of the output block. -/
theorem row2_apply (v : Vec Ideal S2 .f32) (p : Fin 2000) (q : Fin 2) :
    broadcastTo S2000x2 (shapeCast S1x2 v shapeCasts_S2_S1x2) broadcasts_S1x2_S2000x2 (ix2 p q) = v (ix1 q) :=
  (broadcastTo_1b_ab_apply _ _ p q).trans (shapeCast_a_1a_apply v _ 0 q)

/-- The normalised block the body feeds to the product. -/
def normBlk (x0 : Vec Ideal S2000x256 .f32) (g s2 mu be : Vec Ideal S256 .f32) : FVec Ideal S2000x256 .f32 :=
  addf (mulf (subf (shapeCast S2000x256 x0 shapeCasts_S2000x256_S2000x256)
        (broadcastTo S2000x256 (shapeCast S1x256 mu shapeCasts_S256_S1x256) broadcasts_S1x256_S2000x256))
      (broadcastTo S2000x256 (shapeCast S1x256 (mulf g (rsqrt (addf s2 (broadcast S256 (Scalar.ofBits .f32 0x3727C5AC#32))))) shapeCasts_S256_S1x256) broadcasts_S1x256_S2000x256))
    (broadcastTo S2000x256 (shapeCast S1x256 be shapeCasts_S256_S1x256) broadcasts_S1x256_S2000x256)

/-- The body's payload is the product of the normalised block and the weights, both read at the narrower format, summed into
    the zero splat, plus the bias row. -/
theorem pay_eq (x0 : Vec Ideal S2000x256 .f32) (g s2 mu be : Vec Ideal S256 .f32) (w : Vec Ideal S256x2 .f32) (b : Vec Ideal S2 .f32) :
    k2_pay1 x0 g s2 mu be w b
      = addf (matmul dot_S2000x256_S256x2_S2000x2_1_0_0_1_n_n none (truncf .bf16 (normBlk x0 g s2 mu be) bitsLt_bf16_f32) (truncf .bf16 w bitsLt_bf16_f32) (constant S2000x2 .f32 0x00000000#32))
          (broadcastTo S2000x2 (shapeCast S1x2 b shapeCasts_S2_S1x2) broadcasts_S1x2_S2000x2) := rfl

/-- The normalised block's entry (p, k) is the batch normalisation of the feature block at (p, k): subtract the mean, scale
    by γ · (σ² + ε)^(-1/2), add β, each read at column k. -/
theorem normBlk_apply (x0 : Vec Ideal S2000x256 .f32) (g s2 mu be : Vec Ideal S256 .f32) (p : Fin 2000) (k : Fin 256) :
    normBlk x0 g s2 mu be (ix2 p k) = Cert.Layer.bnorm x0 g be mu s2 (ix2 p k) := by
  unfold normBlk Cert.Layer.bnorm
  rw [addf_apply, mulf_apply, subf_apply, row_apply, row_apply, row_apply, shapeCast_self]
  rfl

/-- The product's operand indices at output index i and contraction index q: the left operand is read at (i 0, q) … -/
theorem lhs_dot_0 (i : S2000x2.Idx) (q : dot_S2000x256_S256x2_S2000x2_1_0_0_1_n_n.contr.Idx) :
    (dot_S2000x256_S256x2_S2000x2_1_0_0_1_n_n.lhsIdx i q 0).val = (i 0).val := by
  unfold DotDims.lhsIdx
  rw [dif_neg (show ¬(0 : Fin S2000x256.rank) ∈ dot_S2000x256_S256x2_S2000x2_1_0_0_1_n_n.lhsBatch by decide), dif_pos (show (0 : Fin S2000x256.rank) ∈ dot_S2000x256_S256x2_S2000x2_1_0_0_1_n_n.lhsNonContracting by decide)]
  rfl
theorem lhs_dot_1 (i : S2000x2.Idx) (q : dot_S2000x256_S256x2_S2000x2_1_0_0_1_n_n.contr.Idx) :
    (dot_S2000x256_S256x2_S2000x2_1_0_0_1_n_n.lhsIdx i q 1).val = (q ⟨0, by decide⟩).val :=
  dot_S2000x256_S256x2_S2000x2_1_0_0_1_n_n.lhsIdx_val_of_single rfl i q
/-- … and the right operand at (q, i 1). -/
theorem rhs_dot_0 (i : S2000x2.Idx) (q : dot_S2000x256_S256x2_S2000x2_1_0_0_1_n_n.contr.Idx) :
    (dot_S2000x256_S256x2_S2000x2_1_0_0_1_n_n.rhsIdx i q 0).val = (q ⟨0, by decide⟩).val :=
  dot_S2000x256_S256x2_S2000x2_1_0_0_1_n_n.rhsIdx_val_of_single rfl i q
theorem rhs_dot_1 (i : S2000x2.Idx) (q : dot_S2000x256_S256x2_S2000x2_1_0_0_1_n_n.contr.Idx) :
    (dot_S2000x256_S256x2_S2000x2_1_0_0_1_n_n.rhsIdx i q 1).val = (i 1).val := by
  unfold DotDims.rhsIdx
  rw [dif_neg (show ¬(1 : Fin S256x2.rank) ∈ dot_S2000x256_S256x2_S2000x2_1_0_0_1_n_n.rhsBatch by decide), dif_pos (show (1 : Fin S256x2.rank) ∈ dot_S2000x256_S256x2_S2000x2_1_0_0_1_n_n.rhsNonContracting by decide)]
  rfl

/-- The product into the zero splat, read at (p, q): the sum over the 256 columns. -/
theorem dot_apply (a : FVec Ideal S2000x256 .bf16) (w : FVec Ideal S256x2 .bf16) (p : Fin 2000) (q : Fin 2) :
    matmul dot_S2000x256_S256x2_S2000x2_1_0_0_1_n_n none a w (constant S2000x2 .f32 0x00000000#32) (ix2 p q)
      = ∑ k : Fin 256, a (ix2 p k) * w (ix2 k q) := by
  simp only [matmul]
  rw [Ideal.matmul_constant_zero_apply, ← Equiv.sum_comp (ValueIdx.contrEquiv1 dot_S2000x256_S256x2_S2000x2_1_0_0_1_n_n 256 rfl rfl).symm]
  refine Finset.sum_congr rfl fun k _ => ?_
  have hk := ValueIdx.contrEquiv1_symm_val dot_S2000x256_S256x2_S2000x2_1_0_0_1_n_n 256 rfl rfl k
  have el : dot_S2000x256_S256x2_S2000x2_1_0_0_1_n_n.lhsIdx (ix2 p q) ((ValueIdx.contrEquiv1 dot_S2000x256_S256x2_S2000x2_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2000x256_S256x2_S2000x2_1_0_0_1_n_n.rhsIdx (ix2 p q) ((ValueIdx.contrEquiv1 dot_S2000x256_S256x2_S2000x2_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- THE BODY'S PAYLOAD AT (p, q) is the output layer of the block. -/
theorem pay_apply (x0 : Vec Ideal S2000x256 .f32) (g s2 mu be : Vec Ideal S256 .f32) (w : Vec Ideal S256x2 .f32) (b : Vec Ideal S2 .f32)
    (p : Fin 2000) (q : Fin 2) :
    k2_pay1 x0 g s2 mu be w b (ix2 p q) = (∑ k : Fin 256, Cert.Layer.bnorm x0 g be mu s2 (ix2 p k) * w (ix2 k q)) + b (ix1 q) := by
  rw [pay_eq, addf_apply, row2_apply, dot_apply]
  refine congrArg (· + b (ix1 q)) (Finset.sum_congr rfl fun k _ => ?_)
  rw [truncf_apply, truncf_apply, normBlk_apply]

-- the buffer contents the region is entered with: any
variable (V : (c : Dev nD) → (b : Ref sig .tc) → Buf (Elt Ideal) ((c : Thread nD τ).loc b))

/-- The printed index maps, decided over the grid: the feature block and the output block move together, one block of
    2000 rows per point; every other operand sits at block 0. -/
theorem block_indices : ∀ t : Fin cfg2.N,
      win2_0.index t (0 : Fin 2) = win2_7.index t (0 : Fin 2)
    ∧ win2_0.index t (1 : Fin 2) = 0
    ∧ win2_7.index t (0 : Fin 2) ≤ 24
    ∧ win2_7.index t (1 : Fin 2) = 0
    ∧ win2_1.index t (0 : Fin 1) = 0
    ∧ win2_2.index t (0 : Fin 1) = 0
    ∧ win2_3.index t (0 : Fin 1) = 0
    ∧ win2_4.index t (0 : Fin 1) = 0
    ∧ win2_5.index t (0 : Fin 2) = 0
    ∧ win2_5.index t (1 : Fin 2) = 0
    ∧ win2_6.index t (0 : Fin 1) = 0 :=
  (by decide +kernel : ∀ t : Fin grid2.N, _)

/-- Every block of 2000 rows is some point's. -/
theorem block_onto : ∀ q0 : Fin 25, ∃ t : Fin cfg2.N, win2_7.index t = ![q0.val, 0] :=
  (by decide +kernel : ∀ q0 : Fin 25, ∃ t : Fin grid2.N, win2_7.index t = ![q0.val, 0])

/-- The feature block at point t holds rows 2000·t … 2000·t + 1999 of the hidden features. -/
theorem hid_blk (c : Dev nD) (t : Fin cfg2.N) (p : Fin 2000) (k : Fin 256) (r : Fin 50000)
    (hr : r.val = win2_7.index t (0 : Fin 2) * 2000 + p.val) :
    (iblk2 V c 0 t : Vec Ideal S2000x256 .f32) (ix2 p k) = (V c main_v15 : S50000x256.Idx → EReal) (ix2 r k) := by
  obtain ⟨e0, e1, -⟩ := block_indices t
  unfold iblk2
  rw [View.read_apply]
  show V c main_v15 _ = V c main_v15 _
  congr 1
  funext a
  apply Fin.ext
  match a with
  | ⟨0, _⟩ => show win2_0.index t (0 : Fin 2) * 2000 + 1 * p.val = r.val; omega
  | ⟨1, _⟩ => show win2_0.index t (1 : Fin 2) * 256 + 1 * k.val = k.val; omega

/-- A whole rank-1 operand's block is the operand. -/
theorem row_blk (c : Dev nD) (t : Fin cfg2.N) (k : Fin 256) :
    (iblk2 V c 1 t : Vec Ideal S256 .f32) (ix1 k) = (V c main_arg8 : S256.Idx → EReal) (ix1 k)
    ∧ (iblk2 V c 2 t : Vec Ideal S256 .f32) (ix1 k) = (V c main_arg9 : S256.Idx → EReal) (ix1 k)
    ∧ (iblk2 V c 3 t : Vec Ideal S256 .f32) (ix1 k) = (V c main_arg10 : S256.Idx → EReal) (ix1 k)
    ∧ (iblk2 V c 4 t : Vec Ideal S256 .f32) (ix1 k) = (V c main_arg11 : S256.Idx → EReal) (ix1 k) := by
  obtain ⟨-, -, -, -, e1, e2, e3, e4, -⟩ := block_indices t
  refine ⟨?_, ?_, ?_, ?_⟩
  · unfold iblk2
    rw [View.read_apply]
    show V c main_arg8 _ = V c main_arg8 _
    congr 1
    funext a
    apply Fin.ext
    match a with
    | ⟨0, _⟩ => show win2_1.index t (0 : Fin 1) * 256 + 1 * k.val = k.val; omega
  · unfold iblk2
    rw [View.read_apply]
    show V c main_arg9 _ = V c main_arg9 _
    congr 1
    funext a
    apply Fin.ext
    match a with
    | ⟨0, _⟩ => show win2_2.index t (0 : Fin 1) * 256 + 1 * k.val = k.val; omega
  · unfold iblk2
    rw [View.read_apply]
    show V c main_arg10 _ = V c main_arg10 _
    congr 1
    funext a
    apply Fin.ext
    match a with
    | ⟨0, _⟩ => show win2_3.index t (0 : Fin 1) * 256 + 1 * k.val = k.val; omega
  · unfold iblk2
    rw [View.read_apply]
    show V c main_arg11 _ = V c main_arg11 _
    congr 1
    funext a
    apply Fin.ext
    match a with
    | ⟨0, _⟩ => show win2_4.index t (0 : Fin 1) * 256 + 1 * k.val = k.val; omega

/-- The weight block is the weight matrix. -/
theorem w_blk (c : Dev nD) (t : Fin cfg2.N) (k : Fin 256) (q : Fin 2) :
    (iblk2 V c 5 t : Vec Ideal S256x2 .f32) (ix2 k q) = (V c main_arg12 : S256x2.Idx → EReal) (ix2 k q) := by
  obtain ⟨-, -, -, -, -, -, -, -, e0, e1, -⟩ := block_indices t
  unfold iblk2
  rw [View.read_apply]
  show V c main_arg12 _ = V c main_arg12 _
  congr 1
  funext a
  apply Fin.ext
  match a with
  | ⟨0, _⟩ => show win2_5.index t (0 : Fin 2) * 256 + 1 * k.val = k.val; omega
  | ⟨1, _⟩ => show win2_5.index t (1 : Fin 2) * 2 + 1 * q.val = q.val; omega

/-- The bias block is the bias. -/
theorem b_blk (c : Dev nD) (t : Fin cfg2.N) (q : Fin 2) :
    (iblk2 V c 6 t : Vec Ideal S2 .f32) (ix1 q) = (V c main_arg13 : S2.Idx → EReal) (ix1 q) := by
  obtain ⟨-, -, -, -, -, -, -, -, -, -, e0⟩ := block_indices t
  unfold iblk2
  rw [View.read_apply]
  show V c main_arg13 _ = V c main_arg13 _
  congr 1
  funext a
  apply Fin.ext
  match a with
  | ⟨0, _⟩ => show win2_6.index t (0 : Fin 1) * 2 + 1 * q.val = q.val; omega

/-- The normalisation reads one entry of the features: two feature arrays that agree at an entry, under the same
    four statistics there, normalise alike at it. -/
theorem bnorm_entry {R R' : Nat} (x : Cert.Layer.Mat R 256) (x' : Cert.Layer.Mat R' 256) (γ β μ σ2 γ' β' μ' σ2' : Cert.Layer.Row 256)
    (p : Fin R) (r : Fin R') (k : Fin 256) (hx : x (ix2 p k) = x' (ix2 r k))
    (hγ : γ (ix1 k) = γ' (ix1 k)) (hβ : β (ix1 k) = β' (ix1 k)) (hμ : μ (ix1 k) = μ' (ix1 k)) (hσ : σ2 (ix1 k) = σ2' (ix1 k)) :
    Cert.Layer.bnorm x γ β μ σ2 (ix2 p k) = Cert.Layer.bnorm x' γ' β' μ' σ2' (ix2 r k) := by
  unfold Cert.Layer.bnorm
  show (x (ix2 p k) - μ (ix1 k)) * (γ (ix1 k) * Ideal.rsqrt (σ2 (ix1 k) + Cert.Layer.eps)) + β (ix1 k)
    = (x' (ix2 r k) - μ' (ix1 k)) * (γ' (ix1 k) * Ideal.rsqrt (σ2' (ix1 k) + Cert.Layer.eps)) + β' (ix1 k)
  rw [hx, hγ, hβ, hμ, hσ]

/-- WHAT POINT t WRITES BACK is block t of the output layer of the normalised hidden features. -/
theorem flushed_eq (c : Dev nD) (t : Fin cfg2.N) :
    (dat2 V c).flushed 7 t = ((cfg2.win 7).blk t).view.read (Elt Ideal)
      (Cert.Layer.normDense (V c main_v15) (V c main_arg8) (V c main_arg9) (V c main_arg10) (V c main_arg11) (V c main_arg12) (V c main_arg13)) := by
  show (cfg2.win 7).cut (grid2.coords t) ((dat2 V c).after 7 t) = _
  rw [after2_7]
  unfold out2_7
  rw [View.canon_unit_zero zero_off2]
  simp only [View.ld_unit_zero (S := S2000x256) zero_off2, View.ld_unit_zero (S := S256) zero_off1, View.ld_unit_zero (S := S256x2) zero_off2, View.ld_unit_zero (S := S2) zero_off1]
  obtain ⟨-, -, e2, e3, -⟩ := block_indices t
  funext (j : S2000x2.Idx)
  obtain ⟨p, q, rfl⟩ : ∃ (p : Fin 2000) (q : Fin 2), j = ix2 p q := ⟨j 0, j 1, eq_ix2 j⟩
  have hp : p.val < 2000 := p.isLt
  obtain ⟨r, hr⟩ : ∃ r : Fin 50000, r.val = win2_7.index t (0 : Fin 2) * 2000 + p.val := ⟨⟨win2_7.index t (0 : Fin 2) * 2000 + p.val, by omega⟩, rfl⟩
  have hemb : ((cfg2.win 7).blk t).view.emb (ix2 p q) = (ix2 r q : S50000x2.Idx) := by
    funext a
    apply Fin.ext
    match a with
    | ⟨0, _⟩ => show win2_7.index t (0 : Fin 2) * 2000 + 1 * p.val = r.val; omega
    | ⟨1, _⟩ => show win2_7.index t (1 : Fin 2) * 2 + 1 * q.val = q.val; omega
  show k2_pay1 (iblk2 V c 0 t) (iblk2 V c 1 t) (iblk2 V c 4 t) (iblk2 V c 3 t) (iblk2 V c 2 t) (iblk2 V c 5 t) (iblk2 V c 6 t) (ix2 p q)
    = Cert.Layer.normDense (V c main_v15) (V c main_arg8) (V c main_arg9) (V c main_arg10) (V c main_arg11) (V c main_arg12) (V c main_arg13)
        (((cfg2.win 7).blk t).view.emb (ix2 p q))
  rw [hemb]
  refine (pay_apply _ _ _ _ _ _ _ p q).trans ?_
  show _ = (∑ k : Fin 256, Cert.Layer.bnorm (V c main_v15) (V c main_arg8) (V c main_arg9) (V c main_arg10) (V c main_arg11) (ix2 r k)
      * (V c main_arg12 : S256x2.Idx → EReal) (ix2 k q)) + (V c main_arg13 : S2.Idx → EReal) (ix1 q)
  rw [b_blk V c t q]
  refine congrArg (· + _) (Finset.sum_congr rfl fun k _ => ?_)
  obtain ⟨h1, h2, h3, h4⟩ := row_blk V c t k
  rw [w_blk V c t k q, bnorm_entry _ _ _ _ _ _ _ _ _ _ p r k (hid_blk V c t p k r hr) h1 h2 h3 h4]

/-- An index of the output array is in point t's block iff each coordinate is in the block's range on its axis. -/
theorem mem_blk (t : Fin cfg2.N) (i : S50000x2.Idx) :
    i ∈ ((cfg2.win 7).blk t).view.set ↔ ∀ a : Fin 2, win2_7.index t a * S2000x2.size a ≤ (i a).val ∧ (i a).val < win2_7.index t a * S2000x2.size a + S2000x2.size a := by
  show i ∈ ((View.whole main_v16).slice (win2_7.rect t)).set ↔ _
  rw [View.set_slice_whole, Rect.mem_set_unit]
  exact Iff.rfl

/-- Every row of the output is in some point's block: row r in the block of point r / 2000. -/
theorem cover (i : S50000x2.Idx) : ∃ t : Fin cfg2.N, (cfg2.win 7).flush t = true ∧ i ∈ ((cfg2.win 7).blk t).view.set := by
  have hi0 : (i 0).val < 50000 := (i 0).isLt
  have hi1 : (i 1).val < 2 := (i 1).isLt
  obtain ⟨t, ht⟩ := block_onto ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 2 ≤ (i 1).val ∧ (i 1).val < win2_7.index t (1 : Fin 2) * 2 + 2; omega

/-- After the third region its output array is the output layer of the batch-normalised hidden features. -/
theorem final (c : Dev nD) :
    (dat2 (F := Ideal) V c).arrAt 7 cfg2.N
      = Cert.Layer.normDense (V c main_v15) (V c main_arg8) (V c main_arg9) (V c main_arg10) (V c main_arg11) (V c main_arg12) (V c main_arg13) :=
  (dat2 V c).arrAt_eq_of_cover 7 _ (fun t _ => flushed_eq V c t) cover

end Cert.KernelIdeal.Dense2

end
-- ==== Proof.KernelValue.lean ====
/-
  The result array of the idealized kernel program, as the specification's function of the launch arguments.

  The program is three regions with one stretch of host operations between the first and the second. The contents
  of the buffers at each boundary are a fold from the launch memory; this module walks that fold backwards from the
  result array: the last region's output is the output layer of the batch-normalised hidden features it was entered
  with; those are the second region's output, the dense layer of the normalised features plus their edge aggregation;
  the aggregation is what the host stretch computes from the first region's output and the edge array; and the first
  region's output is the batch normalisation of the launch arguments. Every parameter array reaches its region unchanged.
-/
import proofs.«124425_j74431783240459_1_alg».proof.Proof.Gen.KernelIdeal.Frame
import proofs.«124425_j74431783240459_1_alg».proof.Proof.Spec
import proofs.«124425_j74431783240459_1_alg».proof.Proof.Norm0
import proofs.«124425_j74431783240459_1_alg».proof.Proof.Dense1
import proofs.«124425_j74431783240459_1_alg».proof.Proof.Dense2
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The edge aggregation as the kernel's program spells it: rows of `h` gathered at the source indices of the edge
    array `e` (a negative index first moved up by the number of nodes), scatter-added into a zero array at the
    destination indices. Never opened: the reference applies the same operations. -/
def agg (e : (⟨S2x640000, .i32⟩ : BufTy).Contents (Elt Ideal)) (h : FVec Ideal S50000x128 .f32) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0
      (shapeCast S640000 (extractStridedSlice S1x640000 ![1, 0] e slices_S2x640000_S1x640000_1_0) shapeCasts_S1x640000_S640000))
    (Host.gather gather_S50000x128_S640000x1_S640000x128_1_0_n_n_0_1_1128 h
      (broadcastInDim S640000x1 ![0] bcast_S640000_S640000x1_0
        (select
          (cmpi .slt (shapeCast S640000 (extractStridedSlice S1x640000 ![0, 0] e slices_S2x640000_S1x640000_0_0) shapeCasts_S1x640000_S640000)
            (broadcastInDim S640000 ![] bcast_S_S640000 (constantI S_ 32 0#32)))
          (addi (shapeCast S640000 (extractStridedSlice S1x640000 ![0, 0] e slices_S2x640000_S1x640000_0_0) shapeCasts_S1x640000_S640000)
            (broadcastInDim S640000 ![] bcast_S_S640000 (constantI S_ 32 50000#32)))
          (shapeCast S640000 (extractStridedSlice S1x640000 ![0, 0] e slices_S2x640000_S1x640000_0_0) shapeCasts_S1x640000_S640000))))

/-! ## The first region's output, and what the host stretch makes of it -/

/-- After the first region the normalised-features array holds the batch normalisation of the launch arguments. -/
theorem normed_eq (c : Dev nD) :
    V1 m ρ c main_v0 = Cert.Layer.bnorm (m ((c : Thread nD τ).loc main_arg0)) (m ((c : Thread nD τ).loc main_arg2)) (m ((c : Thread nD τ).loc main_arg3)) (m ((c : Thread nD τ).loc main_arg4)) (m ((c : Thread nD τ).loc main_arg5)) :=
  (W1_arr m ρ c 5).trans (Cert.KernelIdeal.Norm0.final (V0 m ρ) c)

/-- The host stretch leaves the normalised features as the first region wrote them. -/
theorem entry1_normed (c : Dev nD) : V2 m ρ c main_v0 = V1 m ρ c main_v0 :=
  StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The host stretch leaves, in the aggregate array, the edge aggregation of the normalised features. -/
theorem entry1_agg (c : Dev nD) : V2 m ρ c main_v14 = agg (m ((c : Thread nD τ).loc main_arg1)) (V1 m ρ c main_v0) := by
  have he : W1 m ρ c (Proc.devRef .tc main_arg1) = m ((c : Thread nD τ).loc main_arg1) := W1_of_ne m ρ c main_arg1 (by decide)
  show StableHlo.after hostOps1 (W1 m ρ c) (Proc.devRef .tc main_v14) = _
  after_results
  rw [he]
  rfl

/-- The first dense layer's weights and bias reach the second region as launched. -/
theorem entry1_arg6 (c : Dev nD) : V2 m ρ c main_arg6 = m ((c : Thread nD τ).loc main_arg6) :=
  ((W3_arr m ρ c 2).trans (((dat1 (V2 m ρ) c).arrAt_in 2 rfl _).trans (A_eq1 (V2 m ρ) c 2))).symm.trans
    ((W4_of_ne m ρ c main_arg6 (by decide)).symm.trans (W4_main_arg6 m ρ c))
theorem entry1_arg7 (c : Dev nD) : V2 m ρ c main_arg7 = m ((c : Thread nD τ).loc main_arg7) :=
  ((W3_arr m ρ c 3).trans (((dat1 (V2 m ρ) c).arrAt_in 3 rfl _).trans (A_eq1 (V2 m ρ) c 3))).symm.trans
    ((W4_of_ne m ρ c main_arg7 (by decide)).symm.trans (W4_main_arg7 m ρ c))

/-! ## The second region's output -/

/-- After the second region the hidden-features array holds the dense layer of what the region was entered with. -/
theorem hidden_eq (c : Dev nD) :
    V3 m ρ c main_v15 = Cert.Layer.combineDense (V2 m ρ c main_v0) (V2 m ρ c main_v14) (V2 m ρ c main_arg6) (V2 m ρ c main_arg7) :=
  (W3_arr m ρ c 4).trans (Cert.KernelIdeal.Dense1.final (V2 m ρ) c)

/-- The second normalisation's parameters and the output layer's weights and bias reach the third region as launched. -/
theorem entry2_arg8 (c : Dev nD) : V3 m ρ c main_arg8 = m ((c : Thread nD τ).loc main_arg8) :=
  ((W4_arr m ρ c 1).trans (((dat2 (V3 m ρ) c).arrAt_in 1 rfl _).trans (A_eq2 (V3 m ρ) c 1))).symm.trans (W4_main_arg8 m ρ c)
theorem entry2_arg9 (c : Dev nD) : V3 m ρ c main_arg9 = m ((c : Thread nD τ).loc main_arg9) :=
  ((W4_arr m ρ c 2).trans (((dat2 (V3 m ρ) c).arrAt_in 2 rfl _).trans (A_eq2 (V3 m ρ) c 2))).symm.trans (W4_main_arg9 m ρ c)
theorem entry2_arg10 (c : Dev nD) : V3 m ρ c main_arg10 = m ((c : Thread nD τ).loc main_arg10) :=
  ((W4_arr m ρ c 3).trans (((dat2 (V3 m ρ) c).arrAt_in 3 rfl _).trans (A_eq2 (V3 m ρ) c 3))).symm.trans (W4_main_arg10 m ρ c)
theorem entry2_arg11 (c : Dev nD) : V3 m ρ c main_arg11 = m ((c : Thread nD τ).loc main_arg11) :=
  ((W4_arr m ρ c 4).trans (((dat2 (V3 m ρ) c).arrAt_in 4 rfl _).trans (A_eq2 (V3 m ρ) c 4))).symm.trans (W4_main_arg11 m ρ c)
theorem entry2_arg12 (c : Dev nD) : V3 m ρ c main_arg12 = m ((c : Thread nD τ).loc main_arg12) :=
  ((W4_arr m ρ c 5).trans (((dat2 (V3 m ρ) c).arrAt_in 5 rfl _).trans (A_eq2 (V3 m ρ) c 5))).symm.trans (W4_main_arg12 m ρ c)
theorem entry2_arg13 (c : Dev nD) : V3 m ρ c main_arg13 = m ((c : Thread nD τ).loc main_arg13) :=
  ((W4_arr m ρ c 6).trans (((dat2 (V3 m ρ) c).arrAt_in 6 rfl _).trans (A_eq2 (V3 m ρ) c 6))).symm.trans (W4_main_arg13 m ρ c)

/-! ## The third region's output: the result -/

/-- After the third region the result array holds the output layer of what the region was entered with. -/
theorem out_eq (c : Dev nD) :
    W4 m ρ c (Proc.devRef .tc main_v16) = Cert.Layer.normDense (V3 m ρ c main_v15) (V3 m ρ c main_arg8) (V3 m ρ c main_arg9) (V3 m ρ c main_arg10) (V3 m ρ c main_arg11) (V3 m ρ c main_arg12) (V3 m ρ c main_arg13) :=
  (W4_arr m ρ c 7).trans (Cert.KernelIdeal.Dense2.final (V3 m ρ) c)

/-- THE RESULT: the last boundary's contents at the result array are the whole layer of the launch arguments. -/
theorem result (c : Dev nD) :
    W4 m ρ c (Proc.devRef .tc main_v16)
      = Cert.Layer.gin (agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [out_eq, entry2_arg8, entry2_arg9, entry2_arg10, entry2_arg11, entry2_arg12, entry2_arg13, hidden_eq,
    entry1_arg6, entry1_arg7, entry1_agg, entry1_normed, normed_eq]
  rfl

end Cert.KernelIdeal.Whole

end
-- ==== Proof.RefStages.lean ====
/-
  The reference program's result, as the specification's function of its arguments.

  The reference computes, stage by stage on the host: the batch normalisation of the node features, the edge
  aggregation of the normalised features (a gather of source rows, a scatter-add into destination rows), the dense layer
  with bias and rectifier on `1·h + agg h`, the second batch normalisation and the output layer. Each stage read at an
  index is the specification's formula at that index; the aggregation is never opened.
-/
import proofs.«124425_j74431783240459_1_alg».proof.Proof.Gen.ReferenceIdeal.Run
import proofs.«124425_j74431783240459_1_alg».proof.Proof.Gen.ReferenceIdeal.Read
import proofs.«124425_j74431783240459_1_alg».proof.Proof.Spec
import Idealize.ShloMosaic.Lib.ValueIdx
import Idealize.ShloMosaic.PureOps.Ideal.Laws

noncomputable section

open scoped BigOperators

namespace Cert.ReferenceIdeal.Stages

open Idealize.ShloMosaic Idealize.ShloMosaic.TcCoe Idealize.ShloMosaic.ValueIdx Idealize.SL.Sem
open Cert.ReferenceIdeal Cert.ReferenceIdeal.Gen Cert.ReferenceIdeal.Read

/-- The edge aggregation as the reference spells it: rows of `h` gathered at the (sign-normalised) source indices of
    the edge array `e`, scatter-added into a zero array at the destination indices. -/
def agg (e : (⟨S2x640000, .i32⟩ : BufTy).Contents (Elt Ideal)) (h : FVec Ideal S50000x128 .f32) : FVec Ideal S50000x128 .f32 :=
  Host.scatterAdd scatter_S50000x128_S640000x1_S640000x128_1_0_0_1 (val_main_v24 (F := Ideal)) (val_main_v25 (F := Ideal) e)
    (Host.gather gather_S50000x128_S640000x1_S640000x128_1_0_n_n_0_1_1128 h (val_main_v22 (F := Ideal) e))

/-! ## The first batch normalisation -/

/-- The stages up to the first normalised features are the specification's batch normalisation of the node features:
    the three row-broadcasts read a per-column array at the entry's column. -/
theorem norm0_eq
    (x0 : (⟨S50000x128, .f32⟩ : BufTy).Contents (Elt Ideal)) (x2 x3 x4 x5 : (⟨S128, .f32⟩ : BufTy).Contents (Elt Ideal)) :
    val_main_v12 (F := Ideal) x0 x2 x3 x4 x5 = Cert.Layer.bnorm x0 x2 x3 x4 x5 := by
  funext i
  have eμ : idx_main_v0 (idx_main_v1 i) = ix1 (i 1) := funext fun a => Fin.ext (by match a with | ⟨0, _⟩ => rfl)
  have eγ : idx_main_v7 (idx_main_v8 i) = ix1 (i 1) := funext fun a => Fin.ext (by match a with | ⟨0, _⟩ => rfl)
  have eβ : idx_main_v10 (idx_main_v11 i) = ix1 (i 1) := funext fun a => Fin.ext (by match a with | ⟨0, _⟩ => rfl)
  rw [val_main_v12_apply, val_main_v9_apply, val_main_v2_apply, val_main_v1_apply, val_main_v0_apply,
    val_main_v8_apply, val_main_v7_apply, val_main_v6_apply, val_main_v5_apply, val_main_v4_apply, val_main_v3_apply,
    val_main_cst_apply, val_main_v11_apply, val_main_v10_apply]
  simp only [eμ, eγ, eβ, Ideal.addf_def, Ideal.subf_def, Ideal.mulf_def, Ideal.ofBits_def, Ideal.hostUnary_rsqrt_def]
  rfl

/-! ## The first dense layer -/

/-- The stages from the normalised features `h` and their aggregation `a` to the hidden features are the
    specification's dense layer: `1·h + a` contracted with the weights over the feature axis, plus the bias read at
    the entry's column, floored at zero. Both `h` and `a` stay closed. -/
theorem dense1_eq
    (x0 : (⟨S50000x128, .f32⟩ : BufTy).Contents (Elt Ideal)) (x1 : (⟨S2x640000, .i32⟩ : BufTy).Contents (Elt Ideal))
    (x2 x3 x4 x5 : (⟨S128, .f32⟩ : BufTy).Contents (Elt Ideal)) (x6 : (⟨S128x256, .f32⟩ : BufTy).Contents (Elt Ideal))
    (x7 : (⟨S256, .f32⟩ : BufTy).Contents (Elt Ideal)) :
    val_main_v34 (F := Ideal) x0 x1 x2 x3 x4 x5 x6 x7
      = Cert.Layer.combineDense (val_main_v12 (F := Ideal) x0 x2 x3 x4 x5) (val_main_v26 (F := Ideal) x0 x1 x2 x3 x4 x5) x6 x7 := by
  funext i
  have el : ∀ k : Fin 128, lidx_main_v30 i k = ix2 (i 0) k := fun k =>
    funext fun a => Fin.ext (by match a with | ⟨0, _⟩ => rfl | ⟨1, _⟩ => rfl)
  have er : ∀ k : Fin 128, ridx_main_v30 i k = ix2 k (i 1) := fun k =>
    funext fun a => Fin.ext (by match a with | ⟨0, _⟩ => rfl | ⟨1, _⟩ => rfl)
  have eb : idx_main_v31 (idx_main_v32 i) = ix1 (i 1) := funext fun a => Fin.ext (by match a with | ⟨0, _⟩ => rfl)
  rw [val_main_v34_apply, val_main_v33_apply, val_main_v30_apply, val_main_v32_apply, val_main_v31_apply,
    val_main_call0_v0_apply, val_main_call0_cst_apply]
  simp only [val_main_v29_apply, val_main_v28_apply, val_main_v27_apply, val_main_cst_2_apply]
  simp only [el, er, eb, Ideal.addf_def, Ideal.mulf_def, Ideal.maximumf_def, Ideal.ofBits_def]
  rfl

/-! ## The second batch normalisation and the output layer -/

/-- The stages from the hidden features `hid` to the result are the specification's normalised output layer: inside
    the contraction over the hidden axis the entry `(r, k)` of the batch normalisation reads its four per-column
    arrays at `k`; the output bias is read at the entry's column. The hidden features stay closed. -/
theorem dense2_eq
    (x0 : (⟨S50000x128, .f32⟩ : BufTy).Contents (Elt Ideal)) (x1 : (⟨S2x640000, .i32⟩ : BufTy).Contents (Elt Ideal))
    (x2 x3 x4 x5 : (⟨S128, .f32⟩ : BufTy).Contents (Elt Ideal)) (x6 : (⟨S128x256, .f32⟩ : BufTy).Contents (Elt Ideal))
    (x7 x8 x9 x10 x11 : (⟨S256, .f32⟩ : BufTy).Contents (Elt Ideal)) (x12 : (⟨S256x2, .f32⟩ : BufTy).Contents (Elt Ideal))
    (x13 : (⟨S2, .f32⟩ : BufTy).Contents (Elt Ideal)) :
    val_main_v51 (F := Ideal) x0 x1 x2 x3 x4 x5 x6 x7 x8 x9 x10 x11 x12 x13
      = Cert.Layer.normDense (val_main_v34 (F := Ideal) x0 x1 x2 x3 x4 x5 x6 x7) x8 x9 x10 x11 x12 x13 := by
  funext i
  have el : ∀ k : Fin 256, lidx_main_v48 i k = ix2 (i 0) k := fun k =>
    funext fun a => Fin.ext (by match a with | ⟨0, _⟩ => rfl | ⟨1, _⟩ => rfl)
  have er : ∀ k : Fin 256, ridx_main_v48 i k = ix2 k (i 1) := fun k =>
    funext fun a => Fin.ext (by match a with | ⟨0, _⟩ => rfl | ⟨1, _⟩ => rfl)
  have eb : idx_main_v49 (idx_main_v50 i) = ix1 (i 1) := funext fun a => Fin.ext (by match a with | ⟨0, _⟩ => rfl)
  have eμ : ∀ k : Fin 256, idx_main_v35 (idx_main_v36 (lidx_main_v48 i k)) = ix1 k := fun k =>
    funext fun a => Fin.ext (by match a with | ⟨0, _⟩ => rfl)
  have eγ : ∀ k : Fin 256, idx_main_v42 (idx_main_v43 (lidx_main_v48 i k)) = ix1 k := fun k =>
    funext fun a => Fin.ext (by match a with | ⟨0, _⟩ => rfl)
  have eβ : ∀ k : Fin 256, idx_main_v45 (idx_main_v46 (lidx_main_v48 i k)) = ix1 k := fun k =>
    funext fun a => Fin.ext (by match a with | ⟨0, _⟩ => rfl)
  rw [val_main_v51_apply, val_main_v48_apply, val_main_v50_apply, val_main_v49_apply]
  simp only [val_main_v47_apply, val_main_v44_apply, val_main_v37_apply, val_main_v36_apply,
    val_main_v35_apply, val_main_v43_apply, val_main_v42_apply, val_main_v41_apply, val_main_v40_apply,
    val_main_v39_apply, val_main_v38_apply, val_main_cst_3_apply, val_main_v46_apply, val_main_v45_apply]
  simp only [eμ, eγ, eβ]
  simp only [el, er, eb, Ideal.addf_def, Ideal.subf_def, Ideal.mulf_def, Ideal.ofBits_def, Ideal.hostUnary_rsqrt_def]
  rfl

/-! ## The whole layer -/

/-- The reference's last stage is the specification's layer of the fourteen arguments. -/
theorem result_eq
    (x0 : (⟨S50000x128, .f32⟩ : BufTy).Contents (Elt Ideal)) (x1 : (⟨S2x640000, .i32⟩ : BufTy).Contents (Elt Ideal))
    (x2 x3 x4 x5 : (⟨S128, .f32⟩ : BufTy).Contents (Elt Ideal)) (x6 : (⟨S128x256, .f32⟩ : BufTy).Contents (Elt Ideal))
    (x7 x8 x9 x10 x11 : (⟨S256, .f32⟩ : BufTy).Contents (Elt Ideal)) (x12 : (⟨S256x2, .f32⟩ : BufTy).Contents (Elt Ideal))
    (x13 : (⟨S2, .f32⟩ : BufTy).Contents (Elt Ideal)) :
    val_main_v51 (F := Ideal) x0 x1 x2 x3 x4 x5 x6 x7 x8 x9 x10 x11 x12 x13
      = Cert.Layer.gin (agg x1) x0 x2 x3 x4 x5 x6 x7 x8 x9 x10 x11 x12 x13 := by
  have hagg : val_main_v26 (F := Ideal) x0 x1 x2 x3 x4 x5 = agg x1 (val_main_v12 (F := Ideal) x0 x2 x3 x4 x5) := by
    unfold val_main_v26 val_main_v23 agg
    rfl
  rw [dense2_eq, dense1_eq, hagg, norm0_eq]
  rfl

end Cert.ReferenceIdeal.Stages

end
-- ==== Proof.lean ====
/-
  The certificate: a graph-isomorphism-network layer as three tiled kernels against its plain reference.

  Both programs compute, over the extended reals, `out = dense₂ (bnorm₁ (relu (dense₁ (1·h + agg h))))` with
  `h = bnorm₀ x`: an evaluation-mode batch normalisation of the node features (per column `(x − μ)·(γ·(σ² + ε)^(-1/2)) + β`),
  the sum over incoming edges of the source nodes' normalised features (`agg`: a gather followed by a scatter-add, which
  both programs hand to the host in the very same operations), a dense layer with bias and rectifier, a second batch
  normalisation and the output layer. The kernel program tiles the 50000 nodes into 25 blocks of 2000 rows and runs the
  three dense stages block by block; a row of a matrix product depends only on that row of the left factor, so each
  block of each stage is the corresponding rows of the whole-array stage, and the blocks cover the array. The float
  format changes in the kernels' matrix products are the identity over the reals, and a product into a zero accumulator
  is the plain sum. No law beyond re-indexing a finite sum is used, so the finiteness of the inputs is never opened.

  The three frames are the generated ones (the reference's is its generated run with the result dropped); the
  idealization rewrote nothing, so `preserves` is trivial; `algebraic` puts the two runs side by side, each ending with
  its result at the specification's layer of its own arguments, which agree.
-/
import proofs.«124425_j74431783240459_1_alg».proof.Defs
import proofs.«124425_j74431783240459_1_alg».proof.Proof.Gen.Kernel
import proofs.«124425_j74431783240459_1_alg».proof.Proof.Gen.Kernel.Frame
import proofs.«124425_j74431783240459_1_alg».proof.Proof.Gen.KernelIdeal
import proofs.«124425_j74431783240459_1_alg».proof.Proof.Gen.KernelIdeal.Frame
import proofs.«124425_j74431783240459_1_alg».proof.Proof.Gen.ReferenceIdeal
import proofs.«124425_j74431783240459_1_alg».proof.Proof.Gen.ReferenceIdeal.Run
import proofs.«124425_j74431783240459_1_alg».proof.Proof.Gen.ReferenceIdeal.Read
import proofs.«124425_j74431783240459_1_alg».proof.Proof.Gen.Pre_finite_inputs
import proofs.«124425_j74431783240459_1_alg».proof.Proof.Spec
import proofs.«124425_j74431783240459_1_alg».proof.Proof.KernelRun
import proofs.«124425_j74431783240459_1_alg».proof.Proof.KernelValue
import proofs.«124425_j74431783240459_1_alg».proof.Proof.RefStages
import Idealize.ShloMosaic.Adequacy
import Idealize.ShloMosaic.Init

noncomputable section

namespace Cert.Proof

open Idealize.ShloMosaic Idealize.ShloMosaic.TcCoe Idealize.SL.Sem

/-- The two programs spell the edge aggregation with the same host operations over the same shapes: one function. -/
theorem agg_eq (e : (⟨Cert.ReferenceIdeal.S2x640000, .i32⟩ : BufTy).Contents (Elt Ideal)) (h : FVec Ideal Cert.ReferenceIdeal.S50000x128 .f32) :
    Cert.ReferenceIdeal.Stages.agg e h = Cert.KernelIdeal.Whole.agg e h := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with their result at the specification's layer of the kernel program's arguments. -/
theorem algebraic : Cert.algebraic_KernelIdeal_ReferenceIdeal := by
  intro m ρ m' ρ' _ hagree
  refine ⟨fun c => Cert.Layer.gin (Cert.KernelIdeal.Whole.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Whole.result m ρ c), (h c).2⟩) (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13⟩ := hagree c
    refine (Cert.ReferenceIdeal.Read.val_main_v51_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans ?_
    refine (Cert.ReferenceIdeal.Stages.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans ?_
    rw [a0, a1, a2, a3, a4, a5, a6, a7, a8, a9, a10, a11, a12, a13]
    exact congrArg (fun g => Cert.Layer.gin g (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (funext fun h => agg_eq _ h)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
